-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S33554432 : Shape := ⟨1, ![33554432]⟩
abbrev S_ : Shape := ⟨0, ![]⟩

class Facts : Prop where
  bcast_S_S33554432 : S_.BroadcastsInDim S33554432 (![] : Fin 0 → Fin S33554432.rank)
  reducesTo_S33554432_S_d0 : S33554432.ReducesTo [0] S_
  h_S_ : 0 < S_.numel

variable [Facts]

def fn {F : FTy → Type} [FloatOps F] (main_arg0 : FVec F S33554432 .f32) : IVec S_ 1 :=
  let main_v0 : FVec F S33554432 .f32 := Host.absf main_arg0
  let main_cst : FVec F S_ .f32 := constant S_ .f32 0x7F800000#32
  let main_v1 : FVec F S33554432 .f32 := broadcastInDim S33554432 ![] bcast_S_S33554432 main_cst
  let main_v2 : IVec S33554432 1 := cmpf .olt main_v0 main_v1
  let main_c : IVec S_ 1 := constantI S_ 1 1#1
  let main_v3 : IVec S_ 1 := (fun x v => Host.reduce IntOp.andi x v reducesTo_S33554432_S_d0 h_S_) main_v2 main_c
  main_v3
-- ==== Kernel.lean ====
abbrev S33554432 : Shape := ⟨1, ![33554432]⟩
abbrev S262144x128 : Shape := ⟨2, ![262144, 128]⟩
abbrev S1x128 : Shape := ⟨2, ![1, 128]⟩
abbrev S8192x128 : Shape := ⟨2, ![8192, 128]⟩
abbrev S128 : Shape := ⟨1, ![128]⟩
abbrev S1 : Shape := ⟨1, ![1]⟩
abbrev S1x1 : Shape := ⟨2, ![1, 1]⟩

abbrev nBuf : Space → Nat
  | .hbm => 5
  | .vmem => 7
  | .smem => 0
  | _ => 0

abbrev bufTy : (tb : Table) → Fin (tcTables nBuf tb) → BufTy
  | .hbm, ⟨0, _⟩ => ⟨S33554432, .f32⟩
  | .hbm, ⟨1, _⟩ => ⟨S262144x128, .f32⟩
  | .hbm, ⟨2, _⟩ => ⟨S1x128, .f32⟩
  | .hbm, ⟨3, _⟩ => ⟨S262144x128, .f32⟩
  | .hbm, ⟨4, _⟩ => ⟨S33554432, .f32⟩
  | .local _ .vmem, ⟨0, _⟩ => ⟨S8192x128, .f32⟩
  | .local _ .vmem, ⟨1, _⟩ => ⟨S8192x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S8192x128, .f32⟩
  | .local _ .vmem, ⟨6, _⟩ => ⟨S8192x128, .f32⟩
  | _, _ => ⟨S33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg1_1 : Ref sig .tc := ⟨.vmem, 6, rfl⟩
abbrev cc0_sem0_0 : DmaSem sig := 0
abbrev cc0_sem0_1 : DmaSem sig := 1
abbrev cc0_sem1_0 : DmaSem sig := 2
abbrev cc1_sem0_0 : DmaSem sig := 3
abbrev cc1_sem1_0 : DmaSem sig := 4
abbrev cc1_sem1_1 : DmaSem sig := 5

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v12 : BitVec 1 := Scalar.cmpi .eq arg0 c31_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S1x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S8192x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  shapeCasts_S33554432_S262144x128 : S33554432.ShapeCasts S262144x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  reduces_S8192x128_S128 : S8192x128.Reduces [0] S128
  shapeCasts_S128_S1x128 : S128.ShapeCasts S1x128
  reduces_S1x128_S1 : S1x128.Reduces [1] S1
  shapeCasts_S1_S1x1 : S1.ShapeCasts S1x1
  shapeCasts_S1x1_S1x1 : S1x1.ShapeCasts S1x1
  broadcasts_S1x1_S8192x128 : S1x1.Broadcasts S8192x128
  shapeCasts_S262144x128_S33554432 : S262144x128.ShapeCasts S33554432
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .f32 = 32 ∨ (Rect.block (s := S262144x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x128.size a ≤ S1x128.size a
  hwx1_0 : ∀ i : grid1.Coords, EltTy.bits .f32 = 32 ∨ (Rect.block (s := S1x128) S1x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x128.size a ≤ S262144x128.size a
  hwx1_1 : ∀ i : grid1.Coords, EltTy.bits .f32 = 32 ∨ (Rect.block (s := S262144x128) S8192x128.size (cc1_transform_1 i) (hinb1_1 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x128.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_v1) S1x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v2) S8192x128.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S33554432 : Shape := ⟨1, ![33554432]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S_, .f32⟩
  | .hbm, ⟨2, _⟩ => ⟨S_, .f32⟩
  | .hbm, ⟨3, _⟩ => ⟨S33554432, .f32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S33554432_S_d0 : S33554432.ReducesTo [0] S_
  h_S_ : 0 < S_.numel
  bcast_S_S33554432 : S_.BroadcastsInDim S33554432 (![] : Fin 0 → Fin S33554432.rank)

variable [Facts₀]

class Facts : Prop extends Facts₀ where

variable [Facts]
-- ==== Proof.Kernel.Reduce.lean ====
/-
  The first kernel region: over 32 grid points the body keeps, in a scratch row of 128 lanes, the running sums of
  the columns of the 262144 x 128 array, one block of 8192 rows per point. At the first point it stores zeros
  into the scratch row and then adds the block's column sums to it; at every later point it adds the block's
  column sums to what the point before left; at the last point it also copies the row into the output window's
  staging buffer, which the pipeline writes back there and nowhere else (at the other points the output window is
  idle: its buffer is handed back untouched). Stated at a parameter `V`, the buffers' contents when the region is
  entered: the body's triple in each of the three cases, the row after each point (`accAt`), the pipeline's proof
  data with the scratch row carried in the invariant, and the body obligation at every point.
-/
import proofs.«167072_j16776142258799_1_alg».proof.Proof.Gen.Kernel.Launch
import proofs.«167072_j16776142258799_1_alg».proof.Proof.Gen.Kernel.Skeleton
import proofs.«167072_j16776142258799_1_alg».proof.Proof.Gen.Kernel.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block of 8192 rows at every point (it is fetched at each, whole,
    and the body leaves it in place). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions, decided over the grid -/

/-- "This is the first point": the condition under which the body zeroes the scratch row. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- "This is the last point": the condition under which the body copies the row out. -/
abbrev cond0_1 (i : grid0.Coords) : Prop := k0_cond2 i = 1#1
theorem hcond0_1 : ∀ t : Fin cfg0.N, cond0_1 (grid0.coords t) ↔ t.val = 31 :=
  (by decide +kernel : ∀ t : Fin grid0.N, cond0_1 (grid0.coords t) ↔ t.val = 31)

/-- The input window is never idle. -/
theorem liveAt0_0 : ∀ t : Fin cfg0.N, cfg0.idle 0 (grid0.coords t) = false := by decide +kernel
/-- Away from the last point the output window is idle and is not written back; at the last point it is live. -/
theorem idleAt0_1 : ∀ t : Fin cfg0.N, ¬cond0_1 (grid0.coords t) → cfg0.idle 1 (grid0.coords t) = true := by decide +kernel
theorem noFlush0_1 : ∀ t : Fin cfg0.N, ¬cond0_1 (grid0.coords t) → (cfg0.win 1).flush t = false := by decide +kernel
theorem liveAt0_1 : ∀ t : Fin cfg0.N, cond0_1 (grid0.coords t) → cfg0.idle 1 (grid0.coords t) = false := by decide +kernel

/-! ## The memrefs the body is called with -/

abbrev ms0_0 (t : Fin cfg0.N) : Memref sig .tc .vmem S8192x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128 .f32 := win0_1.stage (cfg0.slots t 1)
abbrev hs0_1 (t : Fin cfg0.N) : (ms0_1 t).IsWhole := hstage0_1 ((cfg0.slots t 1).cast nbuf0_1)
/-- The scratch row: a whole scoped buffer of the kernel's own. -/
abbrev scM0 : Memref sig .tc .vmem S1x128 .f32 := Memref.whole cc0_scratch0

/-- Every access of the body is through a rectangle at offset zero that spans its buffer. -/
theorem hz2 : (![0, 0] : Fin 2 → Nat) = fun _ => 0 := by
  funext a; match a with | ⟨0, _⟩ => rfl | ⟨1, _⟩ => rfl

/-! ## The body's triple, case by case -/

set_option maxHeartbeats 1000000 in
/-- At the first point (the scratch row at anything): the row is zeroed, read back, and the block's column sums
    added; the output's buffer is handed back untouched. -/
theorem run_first (c : Dev nD) (E : Set ℕ) (i : grid0.Coords) (arg1 : Memref sig .tc .vmem S8192x128 .f32) (harg1 : arg1.IsWhole) (arg2 : Memref sig .tc .vmem S1x128 .f32) (harg2 : arg2.IsWhole) (arg3 : Memref sig .tc .vmem S1x128 .f32) (harg3 : arg3.IsWhole) (hc0 : cond0_0 i) (hc1 : ¬cond0_1 i)
    (x0 : Vec F S8192x128 .f32) (xi1 : Vec F S1x128 .f32) (K : PUnit → sProp 𝕄) :
    iprop(owns (c : Thread nD τ) arg1 fullShare x0 ∗ owns (c : Thread nD τ) arg2 fullShare xi1 ∗ (∃ d, owns (c : Thread nD τ) arg3 fullShare d)
        ∗ (iprop(owns (c : Thread nD τ) arg1 fullShare x0 ∗ owns (c : Thread nD τ) arg2 fullShare xi1 ∗ owns (c : Thread nD τ) arg3 fullShare (k0_pay2 x0 (k0_pay1 (F := F)))) -∗ K ⟨⟩))
      ⊢ wp frame (wpE (defs₀ (F := F)) Variants.none c none) E (cc0__reduce_kernel i arg1 harg1 arg2 harg2 arg3 harg3) K := by
  simp only [cc0__reduce_kernel_eq_skeleton]; unfold cc0__reduce_kernel_skel
  unfold owns
  iintro ⟨⟨%f0, %hf0, H0⟩, ⟨%f1, %hf1, H1⟩, ⟨%ds0, %fs0, -, HS0⟩, Hk⟩
  obtain rfl := harg1.eq_unread hf0; obtain rfl := harg2.eq_unread hf1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS0
  ipureintro
  rw [View.read_writes_eq_canon _ _ _ (fun y => ⟨_, List.mem_cons_self, View.mem_set_unit_zero (S := S1x128) hz2 inb_S1x128_S1x128_0_0 y⟩)]
  sl_unfold_run_names
  rw [View.canon_cons_unit_zero hz2, View.readCov_unit_zero _ hz2]
  simp only [View.readAt_eq_ld, harg1.read_unread, View.ld_unit_zero (S := S8192x128) hz2]

set_option maxHeartbeats 1000000 in
/-- At a point that is neither first nor last (the scratch row at `xs0`, what the point before left): the block's
    column sums are added to the row; the output's buffer is handed back untouched. -/
theorem run_middle (c : Dev nD) (E : Set ℕ) (i : grid0.Coords) (arg1 : Memref sig .tc .vmem S8192x128 .f32) (harg1 : arg1.IsWhole) (arg2 : Memref sig .tc .vmem S1x128 .f32) (harg2 : arg2.IsWhole) (arg3 : Memref sig .tc .vmem S1x128 .f32) (harg3 : arg3.IsWhole) (hc0 : ¬cond0_0 i) (hc1 : ¬cond0_1 i)
    (x0 : Vec F S8192x128 .f32) (xi1 : Vec F S1x128 .f32) (xs0 : Vec F S1x128 .f32) (K : PUnit → sProp 𝕄) :
    iprop(owns (c : Thread nD τ) arg1 fullShare x0 ∗ owns (c : Thread nD τ) arg2 fullShare xi1 ∗ owns (c : Thread nD τ) arg3 fullShare xs0
        ∗ (iprop(owns (c : Thread nD τ) arg1 fullShare x0 ∗ owns (c : Thread nD τ) arg2 fullShare xi1 ∗ owns (c : Thread nD τ) arg3 fullShare (k0_pay2 x0 xs0)) -∗ K ⟨⟩))
      ⊢ wp frame (wpE (defs₀ (F := F)) Variants.none c none) E (cc0__reduce_kernel i arg1 harg1 arg2 harg2 arg3 harg3) K := by
  simp only [cc0__reduce_kernel_eq_skeleton]; unfold cc0__reduce_kernel_skel
  unfold owns
  iintro ⟨⟨%f0, %hf0, H0⟩, ⟨%f1, %hf1, H1⟩, ⟨%fs0, %hfs0, HS0⟩, Hk⟩
  obtain rfl := harg1.eq_unread hf0; obtain rfl := harg2.eq_unread hf1; obtain rfl := harg3.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS0
  ipureintro
  rw [View.read_writes_eq_canon _ _ _ (fun y => ⟨_, List.mem_cons_self, View.mem_set_unit_zero (S := S1x128) hz2 inb_S1x128_S1x128_0_0 y⟩)]
  sl_unfold_run_names
  rw [View.canon_cons_unit_zero hz2]
  simp only [View.readAt_eq_ld, harg1.read_unread, harg3.read_unread, View.ld_unit_zero (S := S8192x128) hz2, View.ld_unit_zero (S := S1x128) hz2]

set_option maxHeartbeats 1000000 in
/-- At the last point (the scratch row at `xs0`, the output's buffer at anything): the block's column sums are
    added to the row, and the row is copied into the output's buffer. -/
theorem run_last (c : Dev nD) (E : Set ℕ) (i : grid0.Coords) (arg1 : Memref sig .tc .vmem S8192x128 .f32) (harg1 : arg1.IsWhole) (arg2 : Memref sig .tc .vmem S1x128 .f32) (harg2 : arg2.IsWhole) (arg3 : Memref sig .tc .vmem S1x128 .f32) (harg3 : arg3.IsWhole) (hc0 : ¬cond0_0 i) (hc1 : cond0_1 i)
    (x0 : Vec F S8192x128 .f32) (xs0 : Vec F S1x128 .f32) (K : PUnit → sProp 𝕄) :
    iprop(owns (c : Thread nD τ) arg1 fullShare x0 ∗ (∃ d, owns (c : Thread nD τ) arg2 fullShare d) ∗ owns (c : Thread nD τ) arg3 fullShare xs0
        ∗ (iprop(owns (c : Thread nD τ) arg1 fullShare x0 ∗ owns (c : Thread nD τ) arg2 fullShare (k0_pay2 x0 xs0) ∗ owns (c : Thread nD τ) arg3 fullShare (k0_pay2 x0 xs0)) -∗ K ⟨⟩))
      ⊢ wp frame (wpE (defs₀ (F := F)) Variants.none c none) E (cc0__reduce_kernel i arg1 harg1 arg2 harg2 arg3 harg3) K := by
  simp only [cc0__reduce_kernel_eq_skeleton]; unfold cc0__reduce_kernel_skel
  unfold owns
  iintro ⟨⟨%f0, %hf0, H0⟩, ⟨%d1, %f1, -, H1⟩, ⟨%fs0, %hfs0, HS0⟩, Hk⟩
  obtain rfl := harg1.eq_unread hf0; obtain rfl := harg3.eq_unread hfs0
  sl_exec (disch := first | exact hc0 | exact hc1)
  sl_step
  iapply Hk
  isplitl [H0]
  · iexists _; isplitr; · ipureintro; exact harg1.read_unread _
    iexact H0
  isplitl [H1]
  · iexists _; isplitr
    swap; · iexact H1
    ipureintro
    rw [View.read_writes_eq_canon _ _ _ (fun y => ⟨_, List.mem_cons_self, View.mem_set_unit_zero (S := S1x128) hz2 inb_S1x128_S1x128_0_0 y⟩)]
    sl_unfold_run_names
    rw [View.canon_cons_unit_zero hz2, View.readCov_unit_zero _ hz2]
    simp only [View.readAt_eq_ld, harg1.read_unread, harg3.read_unread, View.ld_unit_zero (S := S8192x128) hz2, View.ld_unit_zero (S := S1x128) hz2]
  iexists _; isplitr
  swap; · iexact HS0
  ipureintro
  sl_unfold_run_names
  rw [View.read_writes_eq_canon _ _ _ (fun y => ⟨_, List.mem_cons_self, View.mem_set_unit_zero (S := S1x128) hz2 inb_S1x128_S1x128_0_0 y⟩)]
  rw [View.canon_cons_unit_zero hz2]
  simp only [View.readAt_eq_ld, harg1.read_unread, harg3.read_unread, View.ld_unit_zero (S := S8192x128) hz2, View.ld_unit_zero (S := S1x128) hz2]

/-! ## The scratch row after each point -/

/-- The row of running column sums after the body at position `n`: the first block's column sums over zeros,
    then each later block's added to what the point before left. -/
def accAt (c : Dev nD) : (n : ℕ) → n < cfg0.N → Vec F S1x128 .f32
  | 0, hn => k0_pay2 (iblk0 V c 0 ⟨0, hn⟩) (k0_pay1 (F := F))
  | n + 1, hn => k0_pay2 (iblk0 V c 0 ⟨n + 1, hn⟩) (accAt c n (Nat.lt_of_succ_lt hn))

theorem accAt_first (c : Dev nD) (t : Fin cfg0.N) (h0 : t.val = 0) :
    accAt V c t.val t.isLt = k0_pay2 (iblk0 V c 0 t) (k0_pay1 (F := F)) := by
  obtain ⟨n, hn⟩ := t
  cases n with
  | zero => rfl
  | succ n => exact absurd h0 (Nat.succ_ne_zero n)

theorem accAt_later (c : Dev nD) (t : Fin cfg0.N) (h0 : t.val ≠ 0) :
    accAt V c t.val t.isLt = k0_pay2 (iblk0 V c 0 t) (accAt V c (t.val - 1) (Nat.lt_of_le_of_lt (Nat.sub_le _ _) t.isLt)) := by
  obtain ⟨n, hn⟩ := t
  cases n with
  | zero => exact absurd rfl h0
  | succ n => rfl

/-! ## The invariant: the scratch row carried between points -/

/-- The second region's staging buffers, which this region neither reads nor writes, each whole at some contents. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f))

/-- What the region is handed besides its windows: the scratch row at anything, the second region's staging
    buffers, the generator register at some state. -/
theorem PhiA0_eq (c : Dev nD) :
    (Pipeline.ΦA spec0 c : sProp 𝕄)
      = iprop(iprop((∃ d, owns (c : Thread nD τ) scM0 fullShare d) ∗ otherScoped c) ∗ (∃ r, prngReg c r)) := by
  unfold Pipeline.ΦA otherScoped; rw [scopedRest0_eq]; simp only [scM0, owns_whole]; try rfl

/-- The region's invariant before position `n`: before the first point what the region is handed; afterwards the
    same with the scratch row at what the point before left in it. -/
def PhiS (c : Dev nD) : (n : ℕ) → n ≤ cfg0.N → sProp 𝕄
  | 0, _ => Pipeline.ΦA spec0 c
  | n + 1, hn => iprop(iprop(owns (c : Thread nD τ) scM0 fullShare (accAt V c n hn) ∗ otherScoped c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare (accAt V c n hn) ∗ otherScoped c) ∗ (∃ r, prngReg c r)) := rfl

theorem PhiS_pos (c : Dev nD) (n : ℕ) (h : n ≤ cfg0.N) (hz : n ≠ 0) :
    PhiS V c n h = iprop(iprop(owns (c : Thread nD τ) scM0 fullShare (accAt V c (n - 1) (by omega)) ∗ otherScoped c) ∗ (∃ r, prngReg c r)) := by
  cases n with
  | zero => exact absurd rfl hz
  | succ n => rfl

/-! ## The pipeline's proof data -/

/-- The proof data of the first pipeline on core `c`: the arrays as the region finds them; after the body at
    point `t` the input's buffer at its block and the output's at the row `accAt` (consulted at the last point
    only: elsewhere the window is idle); the invariant carries the scratch row; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => accAt V c t.val t.isLt
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = accAt V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point, by the point's position: first, last, or between. The invariant hands the body the
    scratch row at what the point before left (at anything, at the first point) and takes it back at this point's
    row; the output's buffer is handed back as found except at the last point, where it receives the row. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  have hN : t.val < 32 := lt_of_lt_of_eq t.isLt (show cfg0.N = 32 from N_0)
  by_cases h1 : t.val = 31
  · have hc0 : ¬cond0_0 (grid0.coords t) := fun h => by have := (hcond0_0 t).mp h; omega
    have hc1 : cond0_1 (grid0.coords t) := (hcond0_1 t).mpr h1
    have hz : t.val ≠ 0 := by omega
    rw [show (dat0 V c).leavesExact 1 t = owns (c : Thread nD τ) (ms0_1 t) fullShare ((dat0 V c).after 1 t) from by
      unfold Dat.leavesExact; rw [liveAt0_1 t hc1], after0_1]
    rw [accAt_later V c t hz, PhiS_castSucc V c t, PhiS_pos V c _ _ hz]
    iintro ⟨⟨⟨HS0, Hoth⟩, Hg⟩, Ho, ⟨%d0, H0⟩, ⟨%d1, H1⟩⟩
    iapply (run_last c Set.univ (grid0.coords t) _ _ _ _ _ _ hc0 hc1 (iblk0 V c 0 t) _ _)
    isplitl [H0]; · iexact H0
    isplitl [H1]; · iexists _; iexact H1
    isplitl [HS0]; · iexact HS0
    iintro ⟨H0, H1, HS0⟩
    isplitl [HS0 Hoth Hg]
    · isplitl [HS0 Hoth]
      · isplitl [HS0]; · iexact HS0
        iexact Hoth
      iexact Hg
    isplitl [Ho]; · iexact Ho
    isplitl [H0]; · iexact H0
    iexact H1
  · have hc1 : ¬cond0_1 (grid0.coords t) := fun h => h1 ((hcond0_1 t).mp h)
    rw [Dat.leavesExact_idle (dat0 V c) 1 t (idleAt0_1 t hc1) (noFlush0_1 t hc1)]
    by_cases h0 : t.val = 0
    · have hc0 : cond0_0 (grid0.coords t) := (hcond0_0 t).mpr h0
      rw [accAt_first V c t h0, PhiS_castSucc V c t, PhiS_zero V c _ _ h0, PhiA0_eq]
      iintro ⟨⟨⟨HS0, Hoth⟩, Hg⟩, Ho, ⟨%d0, H0⟩, ⟨%d1, H1⟩⟩
      iapply (run_first c Set.univ (grid0.coords t) _ _ _ _ _ _ hc0 hc1 (iblk0 V c 0 t) _ _)
      isplitl [H0]; · iexact H0
      isplitl [H1]; · iexact H1
      isplitl [HS0]; · iexact HS0
      iintro ⟨H0, H1, HS0⟩
      isplitl [HS0 Hoth Hg]
      · isplitl [HS0 Hoth]
        · isplitl [HS0]; · iexact HS0
          iexact Hoth
        iexact Hg
      isplitl [Ho]; · iexact Ho
      isplitl [H0]; · iexact H0
      iexists _; iexact H1
    · have hc0 : ¬cond0_0 (grid0.coords t) := fun h => h0 ((hcond0_0 t).mp h)
      rw [accAt_later V c t h0, PhiS_castSucc V c t, PhiS_pos V c _ _ h0]
      iintro ⟨⟨⟨HS0, Hoth⟩, Hg⟩, Ho, ⟨%d0, H0⟩, ⟨%d1, H1⟩⟩
      iapply (run_middle c Set.univ (grid0.coords t) _ _ _ _ _ _ hc0 hc1 (iblk0 V c 0 t) _ _ _)
      isplitl [H0]; · iexact H0
      isplitl [H1]; · iexact H1
      isplitl [HS0]; · iexact HS0
      iintro ⟨H0, H1, HS0⟩
      isplitl [HS0 Hoth Hg]
      · isplitl [HS0 Hoth]
        · isplitl [HS0]; · iexact HS0
          iexact Hoth
        iexact Hg
      isplitl [Ho]; · iexact Ho
      isplitl [H0]; · iexact H0
      iexists _; iexact H1

/-- The body obligation of the first pipeline, at every point. -/
theorem body_obligation0 (c : Dev nD) : BodyObligation (dat0 (F := F) V c) (defs₀ (F := F)) Variants.none () Set.univ := fun t => by
  rw [bigSep_W0, bigSep_W0]
  exact sound_body0 V c t

/-- What the region is handed is the invariant before the first point; -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- and after the last point the invariant gives it back, the scratch row's contents forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 32 := N_0; omega), PhiA0_eq]
  iintro ⟨⟨HS0, Hoth⟩, Hg⟩
  isplitl [HS0 Hoth]
  · isplitl [HS0]; · iexists _; iexact HS0
    iexact Hoth
  iexact Hg

end Cert.Kernel.Run

end
-- ==== Proof.Kernel.Broadcast.lean ====
/-
  The second kernel region: at every grid point the body reads the one row of 128 lane totals its input window
  holds (the same row at all 32 points: the window's block index never moves), sums the lanes, and stores that
  number into every entry of the point's 8192 x 128 output block. Stated at a parameter `V`, the buffers' contents
  when the region is entered: the block the input window holds, what the body leaves in the output's staging
  buffer, the body's triple, the pipeline's proof data and the body obligation at every point.
-/
import proofs.«167072_j16776142258799_1_alg».proof.Proof.Gen.Kernel.Launch
import proofs.«167072_j16776142258799_1_alg».proof.Proof.Gen.Kernel.Skeleton
import proofs.«167072_j16776142258799_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's staging buffer holds the row of lane totals at every point, though it is fetched at the
    first point only: the block index does not move and the body leaves the buffer as it found it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The whole 8192 x 128 block, the rectangle the body's one store writes. -/
abbrev rOut1 : Rect S8192x128 := Rect.unit (s := S8192x128) ![0, 0] S8192x128.size inb_S8192x128_S8192x128_0_0
/-- The whole row of 128, the rectangle the body's load reads. -/
abbrev rIn1 : Rect S1x128 := Rect.unit (s := S1x128) ![0, 0] S1x128.size inb_S1x128_S1x128_0_0

/-- What the body leaves in the output's staging buffer, from the row it read: its one store, which covers the
    buffer. -/
def out1_1 (x0 : Vec F S1x128 .f32) : Vec F S8192x128 .f32 :=
  View.canon [⟨rOut1, k1_pay1 (View.ld x0 rIn1)⟩]

theorem cover1_1 (p0 : Vec F S8192x128 .f32) (y : S8192x128.Idx) :
    ∃ pc ∈ ([⟨rOut1, p0⟩] : List (View.Piece (Elt F) S8192x128 .f32)), y ∈ pc.1.set :=
  View.cover_of_tiled [⟨rOut1, p0⟩] S8192x128.size (by rfl) y

set_option maxHeartbeats 1000000 in
/-- The body on whole staging memrefs, the input's at contents `x0` and the output's at anything (the body reads
    the output's buffer once and does not use what it read), runs to the continuation holding the input's as it
    was and the output's at `out1_1 x0`. -/
theorem sound_kernel1 (c : Dev nD) (E : Set ℕ) (i : grid1.Coords) (arg1 : Memref sig .tc .vmem S1x128 .f32) (harg1 : arg1.IsWhole) (arg2 : Memref sig .tc .vmem S8192x128 .f32) (harg2 : arg2.IsWhole)
    (x0 : Vec F S1x128 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1__broadcast_kernel i arg1 harg1 arg2 harg2) K := by
  simp only [cc1__broadcast_kernel_eq_skeleton]; unfold cc1__broadcast_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-- The proof data of the second pipeline on core `c`: the arrays as the region finds them; after the body at
    point `t` the input's buffer at its block and the output's at `out1_1` of it; the invariant says nothing of
    the scoped rest and the generator register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input's memref holds the row of lane totals, so `sound_kernel1` applies; the
    invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the second pipeline, at every point. -/
theorem body_obligation1 (c : Dev nD) : BodyObligation (dat1 (F := F) V c) (defs₀ (F := F)) Variants.none () Set.univ := fun t => by
  rw [bigSep_W1, bigSep_W1]
  exact sound_body1 V c t

end Cert.Kernel.Run

end
-- ==== Proof.Kernel.Main.lean ====
/-
  The whole run of @main: a reshape of the flat input to 262144 x 128, the first kernel region (the running
  column sums), the second (the lane total, broadcast), and a reshape back to the flat shape. The buffers'
  contents at each boundary are a fold from the launch memory: a host stretch applies its operations, a region
  replaces its windows' arrays by what its write-backs leave. The launch theorem for a list of segments then
  says: every weakly fair execution terminates, and the final memory holds, at every unscoped buffer, the last
  boundary's contents. From that: the argument array ends as launched (no item writes it), and the result array
  ends at the last boundary's contents.
-/
import proofs.«167072_j16776142258799_1_alg».proof.Proof.Kernel.Reduce
import proofs.«167072_j16776142258799_1_alg».proof.Proof.Kernel.Broadcast

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 (c : Dev nD) : Valuation τ sig (Elt F) := fun b => m (c, b)
/-- After the first reshape (the first region's entry). -/
abbrev W1 (c : Dev nD) : Valuation τ sig (Elt F) := StableHlo.after hostOps0 (W0 m c)
abbrev V1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the second region's exit (it is entered from the first region's exit contents). -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the last reshape: the contents the run ends with. -/
abbrev W4 (c : Dev nD) : Valuation τ sig (Elt F) := StableHlo.after hostOps2 (W3 m c)

/-- The argument array reaches the end as launched: neither reshape writes it and it is no window's array. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_forall_not_mem (b := Proc.devRef .tc main_arg0) _ _ (List.forall_iff_forall_mem.mp (by
          simp only [hostOps2, List.Forall, StableHlo.reshape_writes, Finset.mem_singleton]
          exact StableHlo.devRef_ne_of_ne (by decide)))
    _ = W2 m c (Proc.devRef .tc main_arg0) := W3_of_ne m c main_arg0 (by decide)
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
          simp only [hostOps0, List.Forall, StableHlo.reshape_writes, Finset.mem_singleton]
          exact StableHlo.devRef_ne_of_ne (by decide)))
    _ = m ((c : Thread nD τ).loc main_arg0) := rfl

/-! ## The proof data family and the thread state -/

/-- No pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last contents, the generator
    register at some state. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The first region over the thread state: entered from every unscoped buffer at `W1`, left at `W2`. Its arrays
    are split out of the unscoped buffers and put back at the exit contents; the generator register goes into the
    region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine BI.Entails.trans (hout0 (V1 m) c) ?_
    unfold Pipeline.ΦA
    show (_ : sProp 𝕄) ⊢ _
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W2`, left at `W3`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four segments in order. -/
abbrev segs : List (Pipeline.Seg (pcfgs (F := F)) adm (pdats m) () defs₀ 𝒱₀ L lv) :=
  [ .host (hseg hostOps0 hostOps0_sub hostOps0_fresh' (W0 m)),
    .region (reg0 m),
    .region (reg1 m),
    .host (hseg hostOps2 hostOps2_sub hostOps2_fresh' (W3 m)) ]

/-- @main is the run of the segments. -/
theorem main_run (c : Dev nD) : main (F := F) c = Pipeline.Seg.run (segs m) :=
  main_segs adm (pdats m) () 𝒱₀ L lv _ _ (reg0 m) (reg1 m) rfl rfl c

set_option backward.isDefEq.respectTransparency.types false in
/-- THE RUN. From any memory with zero counters every weakly fair execution of @main terminates, nothing
    faulting, and the final memory holds every unscoped buffer at the last boundary's contents `W4`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show (iprop(StableHlo.held (c : Thread nD τ) (Pipeline.ucRefs τ sig) (W4 m c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The frame: the argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c _ (mem_uc main_arg0 (by decide))).trans (W4_main_arg0 m c)) (run_main m ρ)

/-- The run with its result named: the result array ends at the last boundary's contents, the argument as launched. -/
theorem run_result : θ_run defs (onTc (τ := τ) (main (F := F))) ⟨m, fun _ => 0, ρ⟩ (fun r => ∀ c : Dev nD,
      r.2.mem ((c.tc : Thread nD τ).loc main_v3) = W4 m c (Proc.devRef .tc main_v3)
      ∧ r.2.mem ((c.tc : Thread nD τ).loc main_arg0) = m ((c.tc : Thread nD τ).loc main_arg0)) :=
  (θ_run defs _ _).mono (fun _ h c => ⟨h c _ (mem_uc main_v3 (by decide)),
    (h c _ (mem_uc main_arg0 (by decide))).trans (W4_main_arg0 m c)⟩) (run_main m ρ)

end Cert.Kernel.Run

end
-- ==== Proof.KernelIdeal.Reduce.lean ====
/-
  The first kernel region: over 32 grid points the body keeps, in a scratch row of 128 lanes, the running sums of
  the columns of the 262144 x 128 array, one block of 8192 rows per point. At the first point it stores zeros
  into the scratch row and then adds the block's column sums to it; at every later point it adds the block's
  column sums to what the point before left; at the last point it also copies the row into the output window's
  staging buffer, which the pipeline writes back there and nowhere else (at the other points the output window is
  idle: its buffer is handed back untouched). Stated at a parameter `V`, the buffers' contents when the region is
  entered: the body's triple in each of the three cases, the row after each point (`accAt`), the pipeline's proof
  data with the scratch row carried in the invariant, and the body obligation at every point.
-/
import proofs.«167072_j16776142258799_1_alg».proof.Proof.Gen.KernelIdeal.Launch
import proofs.«167072_j16776142258799_1_alg».proof.Proof.Gen.KernelIdeal.Skeleton
import proofs.«167072_j16776142258799_1_alg».proof.Proof.Gen.KernelIdeal.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block of 8192 rows at every point (it is fetched at each, whole,
    and the body leaves it in place). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions, decided over the grid -/

/-- "This is the first point": the condition under which the body zeroes the scratch row. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- "This is the last point": the condition under which the body copies the row out. -/
abbrev cond0_1 (i : grid0.Coords) : Prop := k0_cond2 i = 1#1
theorem hcond0_1 : ∀ t : Fin cfg0.N, cond0_1 (grid0.coords t) ↔ t.val = 31 :=
  (by decide +kernel : ∀ t : Fin grid0.N, cond0_1 (grid0.coords t) ↔ t.val = 31)

/-- The input window is never idle. -/
theorem liveAt0_0 : ∀ t : Fin cfg0.N, cfg0.idle 0 (grid0.coords t) = false := by decide +kernel
/-- Away from the last point the output window is idle and is not written back; at the last point it is live. -/
theorem idleAt0_1 : ∀ t : Fin cfg0.N, ¬cond0_1 (grid0.coords t) → cfg0.idle 1 (grid0.coords t) = true := by decide +kernel
theorem noFlush0_1 : ∀ t : Fin cfg0.N, ¬cond0_1 (grid0.coords t) → (cfg0.win 1).flush t = false := by decide +kernel
theorem liveAt0_1 : ∀ t : Fin cfg0.N, cond0_1 (grid0.coords t) → cfg0.idle 1 (grid0.coords t) = false := by decide +kernel

/-! ## The memrefs the body is called with -/

abbrev ms0_0 (t : Fin cfg0.N) : Memref sig .tc .vmem S8192x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128 .f32 := win0_1.stage (cfg0.slots t 1)
abbrev hs0_1 (t : Fin cfg0.N) : (ms0_1 t).IsWhole := hstage0_1 ((cfg0.slots t 1).cast nbuf0_1)
/-- The scratch row: a whole scoped buffer of the kernel's own. -/
abbrev scM0 : Memref sig .tc .vmem S1x128 .f32 := Memref.whole cc0_scratch0

/-- Every access of the body is through a rectangle at offset zero that spans its buffer. -/
theorem hz2 : (![0, 0] : Fin 2 → Nat) = fun _ => 0 := by
  funext a; match a with | ⟨0, _⟩ => rfl | ⟨1, _⟩ => rfl

/-! ## The body's triple, case by case -/

set_option maxHeartbeats 1000000 in
/-- At the first point (the scratch row at anything): the row is zeroed, read back, and the block's column sums
    added; the output's buffer is handed back untouched. -/
theorem run_first (c : Dev nD) (E : Set ℕ) (i : grid0.Coords) (arg1 : Memref sig .tc .vmem S8192x128 .f32) (harg1 : arg1.IsWhole) (arg2 : Memref sig .tc .vmem S1x128 .f32) (harg2 : arg2.IsWhole) (arg3 : Memref sig .tc .vmem S1x128 .f32) (harg3 : arg3.IsWhole) (hc0 : cond0_0 i) (hc1 : ¬cond0_1 i)
    (x0 : Vec F S8192x128 .f32) (xi1 : Vec F S1x128 .f32) (K : PUnit → sProp 𝕄) :
    iprop(owns (c : Thread nD τ) arg1 fullShare x0 ∗ owns (c : Thread nD τ) arg2 fullShare xi1 ∗ (∃ d, owns (c : Thread nD τ) arg3 fullShare d)
        ∗ (iprop(owns (c : Thread nD τ) arg1 fullShare x0 ∗ owns (c : Thread nD τ) arg2 fullShare xi1 ∗ owns (c : Thread nD τ) arg3 fullShare (k0_pay2 x0 (k0_pay1 (F := F)))) -∗ K ⟨⟩))
      ⊢ wp frame (wpE (defs₀ (F := F)) Variants.none c none) E (cc0__reduce_kernel i arg1 harg1 arg2 harg2 arg3 harg3) K := by
  simp only [cc0__reduce_kernel_eq_skeleton]; unfold cc0__reduce_kernel_skel
  unfold owns
  iintro ⟨⟨%f0, %hf0, H0⟩, ⟨%f1, %hf1, H1⟩, ⟨%ds0, %fs0, -, HS0⟩, Hk⟩
  obtain rfl := harg1.eq_unread hf0; obtain rfl := harg2.eq_unread hf1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS0
  ipureintro
  rw [View.read_writes_eq_canon _ _ _ (fun y => ⟨_, List.mem_cons_self, View.mem_set_unit_zero (S := S1x128) hz2 inb_S1x128_S1x128_0_0 y⟩)]
  sl_unfold_run_names
  rw [View.canon_cons_unit_zero hz2, View.readCov_unit_zero _ hz2]
  simp only [View.readAt_eq_ld, harg1.read_unread, View.ld_unit_zero (S := S8192x128) hz2]

set_option maxHeartbeats 1000000 in
/-- At a point that is neither first nor last (the scratch row at `xs0`, what the point before left): the block's
    column sums are added to the row; the output's buffer is handed back untouched. -/
theorem run_middle (c : Dev nD) (E : Set ℕ) (i : grid0.Coords) (arg1 : Memref sig .tc .vmem S8192x128 .f32) (harg1 : arg1.IsWhole) (arg2 : Memref sig .tc .vmem S1x128 .f32) (harg2 : arg2.IsWhole) (arg3 : Memref sig .tc .vmem S1x128 .f32) (harg3 : arg3.IsWhole) (hc0 : ¬cond0_0 i) (hc1 : ¬cond0_1 i)
    (x0 : Vec F S8192x128 .f32) (xi1 : Vec F S1x128 .f32) (xs0 : Vec F S1x128 .f32) (K : PUnit → sProp 𝕄) :
    iprop(owns (c : Thread nD τ) arg1 fullShare x0 ∗ owns (c : Thread nD τ) arg2 fullShare xi1 ∗ owns (c : Thread nD τ) arg3 fullShare xs0
        ∗ (iprop(owns (c : Thread nD τ) arg1 fullShare x0 ∗ owns (c : Thread nD τ) arg2 fullShare xi1 ∗ owns (c : Thread nD τ) arg3 fullShare (k0_pay2 x0 xs0)) -∗ K ⟨⟩))
      ⊢ wp frame (wpE (defs₀ (F := F)) Variants.none c none) E (cc0__reduce_kernel i arg1 harg1 arg2 harg2 arg3 harg3) K := by
  simp only [cc0__reduce_kernel_eq_skeleton]; unfold cc0__reduce_kernel_skel
  unfold owns
  iintro ⟨⟨%f0, %hf0, H0⟩, ⟨%f1, %hf1, H1⟩, ⟨%fs0, %hfs0, HS0⟩, Hk⟩
  obtain rfl := harg1.eq_unread hf0; obtain rfl := harg2.eq_unread hf1; obtain rfl := harg3.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS0
  ipureintro
  rw [View.read_writes_eq_canon _ _ _ (fun y => ⟨_, List.mem_cons_self, View.mem_set_unit_zero (S := S1x128) hz2 inb_S1x128_S1x128_0_0 y⟩)]
  sl_unfold_run_names
  rw [View.canon_cons_unit_zero hz2]
  simp only [View.readAt_eq_ld, harg1.read_unread, harg3.read_unread, View.ld_unit_zero (S := S8192x128) hz2, View.ld_unit_zero (S := S1x128) hz2]

set_option maxHeartbeats 1000000 in
/-- At the last point (the scratch row at `xs0`, the output's buffer at anything): the block's column sums are
    added to the row, and the row is copied into the output's buffer. -/
theorem run_last (c : Dev nD) (E : Set ℕ) (i : grid0.Coords) (arg1 : Memref sig .tc .vmem S8192x128 .f32) (harg1 : arg1.IsWhole) (arg2 : Memref sig .tc .vmem S1x128 .f32) (harg2 : arg2.IsWhole) (arg3 : Memref sig .tc .vmem S1x128 .f32) (harg3 : arg3.IsWhole) (hc0 : ¬cond0_0 i) (hc1 : cond0_1 i)
    (x0 : Vec F S8192x128 .f32) (xs0 : Vec F S1x128 .f32) (K : PUnit → sProp 𝕄) :
    iprop(owns (c : Thread nD τ) arg1 fullShare x0 ∗ (∃ d, owns (c : Thread nD τ) arg2 fullShare d) ∗ owns (c : Thread nD τ) arg3 fullShare xs0
        ∗ (iprop(owns (c : Thread nD τ) arg1 fullShare x0 ∗ owns (c : Thread nD τ) arg2 fullShare (k0_pay2 x0 xs0) ∗ owns (c : Thread nD τ) arg3 fullShare (k0_pay2 x0 xs0)) -∗ K ⟨⟩))
      ⊢ wp frame (wpE (defs₀ (F := F)) Variants.none c none) E (cc0__reduce_kernel i arg1 harg1 arg2 harg2 arg3 harg3) K := by
  simp only [cc0__reduce_kernel_eq_skeleton]; unfold cc0__reduce_kernel_skel
  unfold owns
  iintro ⟨⟨%f0, %hf0, H0⟩, ⟨%d1, %f1, -, H1⟩, ⟨%fs0, %hfs0, HS0⟩, Hk⟩
  obtain rfl := harg1.eq_unread hf0; obtain rfl := harg3.eq_unread hfs0
  sl_exec (disch := first | exact hc0 | exact hc1)
  sl_step
  iapply Hk
  isplitl [H0]
  · iexists _; isplitr; · ipureintro; exact harg1.read_unread _
    iexact H0
  isplitl [H1]
  · iexists _; isplitr
    swap; · iexact H1
    ipureintro
    rw [View.read_writes_eq_canon _ _ _ (fun y => ⟨_, List.mem_cons_self, View.mem_set_unit_zero (S := S1x128) hz2 inb_S1x128_S1x128_0_0 y⟩)]
    sl_unfold_run_names
    rw [View.canon_cons_unit_zero hz2, View.readCov_unit_zero _ hz2]
    simp only [View.readAt_eq_ld, harg1.read_unread, harg3.read_unread, View.ld_unit_zero (S := S8192x128) hz2, View.ld_unit_zero (S := S1x128) hz2]
  iexists _; isplitr
  swap; · iexact HS0
  ipureintro
  sl_unfold_run_names
  rw [View.read_writes_eq_canon _ _ _ (fun y => ⟨_, List.mem_cons_self, View.mem_set_unit_zero (S := S1x128) hz2 inb_S1x128_S1x128_0_0 y⟩)]
  rw [View.canon_cons_unit_zero hz2]
  simp only [View.readAt_eq_ld, harg1.read_unread, harg3.read_unread, View.ld_unit_zero (S := S8192x128) hz2, View.ld_unit_zero (S := S1x128) hz2]

/-! ## The scratch row after each point -/

/-- The row of running column sums after the body at position `n`: the first block's column sums over zeros,
    then each later block's added to what the point before left. -/
def accAt (c : Dev nD) : (n : ℕ) → n < cfg0.N → Vec F S1x128 .f32
  | 0, hn => k0_pay2 (iblk0 V c 0 ⟨0, hn⟩) (k0_pay1 (F := F))
  | n + 1, hn => k0_pay2 (iblk0 V c 0 ⟨n + 1, hn⟩) (accAt c n (Nat.lt_of_succ_lt hn))

theorem accAt_first (c : Dev nD) (t : Fin cfg0.N) (h0 : t.val = 0) :
    accAt V c t.val t.isLt = k0_pay2 (iblk0 V c 0 t) (k0_pay1 (F := F)) := by
  obtain ⟨n, hn⟩ := t
  cases n with
  | zero => rfl
  | succ n => exact absurd h0 (Nat.succ_ne_zero n)

theorem accAt_later (c : Dev nD) (t : Fin cfg0.N) (h0 : t.val ≠ 0) :
    accAt V c t.val t.isLt = k0_pay2 (iblk0 V c 0 t) (accAt V c (t.val - 1) (Nat.lt_of_le_of_lt (Nat.sub_le _ _) t.isLt)) := by
  obtain ⟨n, hn⟩ := t
  cases n with
  | zero => exact absurd rfl h0
  | succ n => rfl

/-! ## The invariant: the scratch row carried between points -/

/-- The second region's staging buffers, which this region neither reads nor writes, each whole at some contents. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f))

/-- What the region is handed besides its windows: the scratch row at anything, the second region's staging
    buffers, the generator register at some state. -/
theorem PhiA0_eq (c : Dev nD) :
    (Pipeline.ΦA spec0 c : sProp 𝕄)
      = iprop(iprop((∃ d, owns (c : Thread nD τ) scM0 fullShare d) ∗ otherScoped c) ∗ (∃ r, prngReg c r)) := by
  unfold Pipeline.ΦA otherScoped; rw [scopedRest0_eq]; simp only [scM0, owns_whole]; try rfl

/-- The region's invariant before position `n`: before the first point what the region is handed; afterwards the
    same with the scratch row at what the point before left in it. -/
def PhiS (c : Dev nD) : (n : ℕ) → n ≤ cfg0.N → sProp 𝕄
  | 0, _ => Pipeline.ΦA spec0 c
  | n + 1, hn => iprop(iprop(owns (c : Thread nD τ) scM0 fullShare (accAt V c n hn) ∗ otherScoped c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare (accAt V c n hn) ∗ otherScoped c) ∗ (∃ r, prngReg c r)) := rfl

theorem PhiS_pos (c : Dev nD) (n : ℕ) (h : n ≤ cfg0.N) (hz : n ≠ 0) :
    PhiS V c n h = iprop(iprop(owns (c : Thread nD τ) scM0 fullShare (accAt V c (n - 1) (by omega)) ∗ otherScoped c) ∗ (∃ r, prngReg c r)) := by
  cases n with
  | zero => exact absurd rfl hz
  | succ n => rfl

/-! ## The pipeline's proof data -/

/-- The proof data of the first pipeline on core `c`: the arrays as the region finds them; after the body at
    point `t` the input's buffer at its block and the output's at the row `accAt` (consulted at the last point
    only: elsewhere the window is idle); the invariant carries the scratch row; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => accAt V c t.val t.isLt
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = accAt V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point, by the point's position: first, last, or between. The invariant hands the body the
    scratch row at what the point before left (at anything, at the first point) and takes it back at this point's
    row; the output's buffer is handed back as found except at the last point, where it receives the row. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  have hN : t.val < 32 := lt_of_lt_of_eq t.isLt (show cfg0.N = 32 from N_0)
  by_cases h1 : t.val = 31
  · have hc0 : ¬cond0_0 (grid0.coords t) := fun h => by have := (hcond0_0 t).mp h; omega
    have hc1 : cond0_1 (grid0.coords t) := (hcond0_1 t).mpr h1
    have hz : t.val ≠ 0 := by omega
    rw [show (dat0 V c).leavesExact 1 t = owns (c : Thread nD τ) (ms0_1 t) fullShare ((dat0 V c).after 1 t) from by
      unfold Dat.leavesExact; rw [liveAt0_1 t hc1], after0_1]
    rw [accAt_later V c t hz, PhiS_castSucc V c t, PhiS_pos V c _ _ hz]
    iintro ⟨⟨⟨HS0, Hoth⟩, Hg⟩, Ho, ⟨%d0, H0⟩, ⟨%d1, H1⟩⟩
    iapply (run_last c Set.univ (grid0.coords t) _ _ _ _ _ _ hc0 hc1 (iblk0 V c 0 t) _ _)
    isplitl [H0]; · iexact H0
    isplitl [H1]; · iexists _; iexact H1
    isplitl [HS0]; · iexact HS0
    iintro ⟨H0, H1, HS0⟩
    isplitl [HS0 Hoth Hg]
    · isplitl [HS0 Hoth]
      · isplitl [HS0]; · iexact HS0
        iexact Hoth
      iexact Hg
    isplitl [Ho]; · iexact Ho
    isplitl [H0]; · iexact H0
    iexact H1
  · have hc1 : ¬cond0_1 (grid0.coords t) := fun h => h1 ((hcond0_1 t).mp h)
    rw [Dat.leavesExact_idle (dat0 V c) 1 t (idleAt0_1 t hc1) (noFlush0_1 t hc1)]
    by_cases h0 : t.val = 0
    · have hc0 : cond0_0 (grid0.coords t) := (hcond0_0 t).mpr h0
      rw [accAt_first V c t h0, PhiS_castSucc V c t, PhiS_zero V c _ _ h0, PhiA0_eq]
      iintro ⟨⟨⟨HS0, Hoth⟩, Hg⟩, Ho, ⟨%d0, H0⟩, ⟨%d1, H1⟩⟩
      iapply (run_first c Set.univ (grid0.coords t) _ _ _ _ _ _ hc0 hc1 (iblk0 V c 0 t) _ _)
      isplitl [H0]; · iexact H0
      isplitl [H1]; · iexact H1
      isplitl [HS0]; · iexact HS0
      iintro ⟨H0, H1, HS0⟩
      isplitl [HS0 Hoth Hg]
      · isplitl [HS0 Hoth]
        · isplitl [HS0]; · iexact HS0
          iexact Hoth
        iexact Hg
      isplitl [Ho]; · iexact Ho
      isplitl [H0]; · iexact H0
      iexists _; iexact H1
    · have hc0 : ¬cond0_0 (grid0.coords t) := fun h => h0 ((hcond0_0 t).mp h)
      rw [accAt_later V c t h0, PhiS_castSucc V c t, PhiS_pos V c _ _ h0]
      iintro ⟨⟨⟨HS0, Hoth⟩, Hg⟩, Ho, ⟨%d0, H0⟩, ⟨%d1, H1⟩⟩
      iapply (run_middle c Set.univ (grid0.coords t) _ _ _ _ _ _ hc0 hc1 (iblk0 V c 0 t) _ _ _)
      isplitl [H0]; · iexact H0
      isplitl [H1]; · iexact H1
      isplitl [HS0]; · iexact HS0
      iintro ⟨H0, H1, HS0⟩
      isplitl [HS0 Hoth Hg]
      · isplitl [HS0 Hoth]
        · isplitl [HS0]; · iexact HS0
          iexact Hoth
        iexact Hg
      isplitl [Ho]; · iexact Ho
      isplitl [H0]; · iexact H0
      iexists _; iexact H1

/-- The body obligation of the first pipeline, at every point. -/
theorem body_obligation0 (c : Dev nD) : BodyObligation (dat0 (F := F) V c) (defs₀ (F := F)) Variants.none () Set.univ := fun t => by
  rw [bigSep_W0, bigSep_W0]
  exact sound_body0 V c t

/-- What the region is handed is the invariant before the first point; -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- and after the last point the invariant gives it back, the scratch row's contents forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 32 := N_0; omega), PhiA0_eq]
  iintro ⟨⟨HS0, Hoth⟩, Hg⟩
  isplitl [HS0 Hoth]
  · isplitl [HS0]; · iexists _; iexact HS0
    iexact Hoth
  iexact Hg

end Cert.KernelIdeal.Run

end
-- ==== Proof.KernelIdeal.Broadcast.lean ====
/-
  The second kernel region: at every grid point the body reads the one row of 128 lane totals its input window
  holds (the same row at all 32 points: the window's block index never moves), sums the lanes, and stores that
  number into every entry of the point's 8192 x 128 output block. Stated at a parameter `V`, the buffers' contents
  when the region is entered: the block the input window holds, what the body leaves in the output's staging
  buffer, the body's triple, the pipeline's proof data and the body obligation at every point.
-/
import proofs.«167072_j16776142258799_1_alg».proof.Proof.Gen.KernelIdeal.Launch
import proofs.«167072_j16776142258799_1_alg».proof.Proof.Gen.KernelIdeal.Skeleton
import proofs.«167072_j16776142258799_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's staging buffer holds the row of lane totals at every point, though it is fetched at the
    first point only: the block index does not move and the body leaves the buffer as it found it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The whole 8192 x 128 block, the rectangle the body's one store writes. -/
abbrev rOut1 : Rect S8192x128 := Rect.unit (s := S8192x128) ![0, 0] S8192x128.size inb_S8192x128_S8192x128_0_0
/-- The whole row of 128, the rectangle the body's load reads. -/
abbrev rIn1 : Rect S1x128 := Rect.unit (s := S1x128) ![0, 0] S1x128.size inb_S1x128_S1x128_0_0

/-- What the body leaves in the output's staging buffer, from the row it read: its one store, which covers the
    buffer. -/
def out1_1 (x0 : Vec F S1x128 .f32) : Vec F S8192x128 .f32 :=
  View.canon [⟨rOut1, k1_pay1 (View.ld x0 rIn1)⟩]

theorem cover1_1 (p0 : Vec F S8192x128 .f32) (y : S8192x128.Idx) :
    ∃ pc ∈ ([⟨rOut1, p0⟩] : List (View.Piece (Elt F) S8192x128 .f32)), y ∈ pc.1.set :=
  View.cover_of_tiled [⟨rOut1, p0⟩] S8192x128.size (by rfl) y

set_option maxHeartbeats 1000000 in
/-- The body on whole staging memrefs, the input's at contents `x0` and the output's at anything (the body reads
    the output's buffer once and does not use what it read), runs to the continuation holding the input's as it
    was and the output's at `out1_1 x0`. -/
theorem sound_kernel1 (c : Dev nD) (E : Set ℕ) (i : grid1.Coords) (arg1 : Memref sig .tc .vmem S1x128 .f32) (harg1 : arg1.IsWhole) (arg2 : Memref sig .tc .vmem S8192x128 .f32) (harg2 : arg2.IsWhole)
    (x0 : Vec F S1x128 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1__broadcast_kernel i arg1 harg1 arg2 harg2) K := by
  simp only [cc1__broadcast_kernel_eq_skeleton]; unfold cc1__broadcast_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-- The proof data of the second pipeline on core `c`: the arrays as the region finds them; after the body at
    point `t` the input's buffer at its block and the output's at `out1_1` of it; the invariant says nothing of
    the scoped rest and the generator register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input's memref holds the row of lane totals, so `sound_kernel1` applies; the
    invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the second pipeline, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Run

end
-- ==== Proof.KernelIdeal.Main.lean ====
/-
  The whole run of @main: a reshape of the flat input to 262144 x 128, the first kernel region (the running
  column sums), the second (the lane total, broadcast), and a reshape back to the flat shape. The buffers'
  contents at each boundary are a fold from the launch memory: a host stretch applies its operations, a region
  replaces its windows' arrays by what its write-backs leave. The launch theorem for a list of segments then
  says: every weakly fair execution terminates, and the final memory holds, at every unscoped buffer, the last
  boundary's contents. From that: the argument array ends as launched (no item writes it), and the result array
  ends at the last boundary's contents.
-/
import proofs.«167072_j16776142258799_1_alg».proof.Proof.KernelIdeal.Reduce
import proofs.«167072_j16776142258799_1_alg».proof.Proof.KernelIdeal.Broadcast

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 (c : Dev nD) : Valuation τ sig (Elt F) := fun b => m (c, b)
/-- After the first reshape (the first region's entry). -/
abbrev W1 (c : Dev nD) : Valuation τ sig (Elt F) := StableHlo.after hostOps0 (W0 m c)
abbrev V1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the second region's exit (it is entered from the first region's exit contents). -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the last reshape: the contents the run ends with. -/
abbrev W4 (c : Dev nD) : Valuation τ sig (Elt F) := StableHlo.after hostOps2 (W3 m c)

/-- The argument array reaches the end as launched: neither reshape writes it and it is no window's array. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_forall_not_mem (b := Proc.devRef .tc main_arg0) _ _ (List.forall_iff_forall_mem.mp (by
          simp only [hostOps2, List.Forall, StableHlo.reshape_writes, Finset.mem_singleton]
          exact StableHlo.devRef_ne_of_ne (by decide)))
    _ = W2 m c (Proc.devRef .tc main_arg0) := W3_of_ne m c main_arg0 (by decide)
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
          simp only [hostOps0, List.Forall, StableHlo.reshape_writes, Finset.mem_singleton]
          exact StableHlo.devRef_ne_of_ne (by decide)))
    _ = m ((c : Thread nD τ).loc main_arg0) := rfl

/-! ## The proof data family and the thread state -/

/-- No pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last contents, the generator
    register at some state. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The first region over the thread state: entered from every unscoped buffer at `W1`, left at `W2`. Its arrays
    are split out of the unscoped buffers and put back at the exit contents; the generator register goes into the
    region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine BI.Entails.trans (hout0 (V1 m) c) ?_
    unfold Pipeline.ΦA
    show (_ : sProp 𝕄) ⊢ _
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W2`, left at `W3`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four segments in order. -/
abbrev segs : List (Pipeline.Seg (pcfgs (F := F)) adm (pdats m) () defs₀ 𝒱₀ L lv) :=
  [ .host (hseg hostOps0 hostOps0_sub hostOps0_fresh' (W0 m)),
    .region (reg0 m),
    .region (reg1 m),
    .host (hseg hostOps2 hostOps2_sub hostOps2_fresh' (W3 m)) ]

/-- @main is the run of the segments. -/
theorem main_run (c : Dev nD) : main (F := F) c = Pipeline.Seg.run (segs m) :=
  main_segs adm (pdats m) () 𝒱₀ L lv _ _ (reg0 m) (reg1 m) rfl rfl c

set_option backward.isDefEq.respectTransparency.types false in
/-- THE RUN. From any memory with zero counters every weakly fair execution of @main terminates, nothing
    faulting, and the final memory holds every unscoped buffer at the last boundary's contents `W4`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show (iprop(StableHlo.held (c : Thread nD τ) (Pipeline.ucRefs τ sig) (W4 m c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The frame: the argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c _ (mem_uc main_arg0 (by decide))).trans (W4_main_arg0 m c)) (run_main m ρ)

/-- The run with its result named: the result array ends at the last boundary's contents, the argument as launched. -/
theorem run_result : θ_run defs (onTc (τ := τ) (main (F := F))) ⟨m, fun _ => 0, ρ⟩ (fun r => ∀ c : Dev nD,
      r.2.mem ((c.tc : Thread nD τ).loc main_v3) = W4 m c (Proc.devRef .tc main_v3)
      ∧ r.2.mem ((c.tc : Thread nD τ).loc main_arg0) = m ((c.tc : Thread nD τ).loc main_arg0)) :=
  (θ_run defs _ _).mono (fun _ h c => ⟨h c _ (mem_uc main_v3 (by decide)),
    (h c _ (mem_uc main_arg0 (by decide))).trans (W4_main_arg0 m c)⟩) (run_main m ρ)

end Cert.KernelIdeal.Run

end
-- ==== Proof.Payloads.lean ====
/-
  The three pure values the kernel stores, read at one position, at the ideal instance (every float an extended real,
  every operation exact).

  * The reset value is the splat of the zero word: `0` at every position.
  * One accumulation step adds to the running row `s`, lane by lane, the column sum of the loaded block `x`:
    at lane `l` it is `s (0, l) + ∑ r, x (r, l)`. The reduction starts from the zero word, the additive neutral, so the
    reduction over the row axis is the bare sum over the 8192 row coordinates; the shape casts around it only rename
    positions (same shape: the identity; `[128]` to `[1, 128]`: a unit axis in front).
  * The spread value sums the 128 lanes of the row `v` and writes that one number at every position of an
    `8192 × 128` block: `∑ l, v (0, l)` whatever the position. The reduction over the lane axis gives a one-element
    vector, the casts to `[1, 1]` keep that element, and the broadcast reads it everywhere.
-/
import proofs.«167072_j16776142258799_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Totals

open Idealize.ShloMosaic Idealize.SL.Sem Idealize.ShloMosaic.ValueIdx Cert.KernelIdeal Cert.KernelIdeal.Gen

/-- The reset value: the zero word splat over the row, so `0` at every position. -/
theorem reset_apply (y : S1x128.Idx) : k0_pay1 (F := Ideal) y = 0 := by
  unfold k0_pay1
  rw [shapeCast_self]
  exact Ideal.ofBits_zero_f32

/-- Inserting row coordinate `r` into the lane index `l` gives the position `(r, l)` of the block. -/
theorem lift_rows (h : S8192x128.Reduces [0] S128) (l : Fin 128) (r : Fin 8192) :
    h.lift (ix1 l) r = ix2 r l := by
  funext a
  match a with
  | ⟨0, _⟩ => rfl
  | ⟨1, _⟩ => rfl

/-- Inserting lane coordinate `l` into the one index of the one-element vector gives the position `(0, l)` of the row. -/
theorem lift_lanes (h : S1x128.Reduces [1] S1) (u : Fin 1) (l : Fin 128) :
    h.lift (ix1 u) l = ix2 (0 : Fin 1) l := by
  funext a
  match a with
  | ⟨0, _⟩ => exact Fin.ext (by have hu := u.isLt; show u.val = 0; omega)
  | ⟨1, _⟩ => rfl

/-- One accumulation step at lane `l`: the running value plus the block's column sum. -/
theorem step_apply (x : Vec Ideal S8192x128 .f32) (s : Vec Ideal S1x128 .f32) (l : Fin 128) :
    k0_pay2 (F := Ideal) x s (ix2 (0 : Fin 1) l) = s (ix2 (0 : Fin 1) l) + ∑ r : Fin 8192, x (ix2 r l) := by
  unfold k0_pay2
  rw [shapeCast_self, shapeCast_self]
  rw [addf_apply]
  congr 1
  rw [shapeCast_a_1a_apply]
  refine (Ideal.multiReduction_add_single (φ := .f32) x 0x00000000#32 reduces_S8192x128_S128 (.inl rfl) rfl (ix1 l)).trans ?_
  exact Finset.sum_congr rfl fun r _ => congrArg x (lift_rows _ l r)

/-- The spread value at any position: the sum of the row's 128 lanes. -/
theorem spread_apply (v : Vec Ideal S1x128 .f32) (y : S8192x128.Idx) :
    k1_pay1 (F := Ideal) v y = ∑ l : Fin 128, v (ix2 (0 : Fin 1) l) := by
  unfold k1_pay1
  rw [shapeCast_self, shapeCast_self]
  refine (broadcastTo_apply _ broadcasts_S1x1_S8192x128 y (ix2 (0 : Fin 1) (0 : Fin 1)) fun a => ?_).trans ?_
  · match a with
    | ⟨0, _⟩ => rfl
    | ⟨1, _⟩ => rfl
  rw [shapeCast_a_1a_apply]
  refine (Ideal.multiReduction_add_single (φ := .f32) v 0x00000000#32 reduces_S1x128_S1 (.inl rfl) rfl (ix1 (0 : Fin 1))).trans ?_
  exact Finset.sum_congr rfl fun l _ => congrArg v (lift_lanes _ 0 l)

end Cert.KernelIdeal.Totals

end
-- ==== Proof.KernelIdeal.RowSums.lean ====
/-
  What the first region leaves in its output array, at the ideal instance: lane `l` of the row holds the sum,
  over the 32 blocks of 8192 rows, of the column sums of the 262144 x 128 array the region was entered with.
-/
import proofs.«167072_j16776142258799_1_alg».proof.Proof.KernelIdeal.Reduce
import proofs.«167072_j16776142258799_1_alg».proof.Proof.Payloads

set_option maxRecDepth 16384

noncomputable section

open scoped BigOperators

namespace Cert.KernelIdeal.Run

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.Totals

variable (V : (c : Dev nD) → (b : Ref sig .tc) → Buf (Elt Ideal) ((c : Thread nD τ).loc b))

/-- The array the region is entered with, at its literal type. -/
abbrev arr0 (c : Dev nD) : Vec Ideal S262144x128 .f32 := V c main_v0

/-- The input window's block index at point `t` is `(t, 0)`: block `t` of 8192 rows, all 128 lanes. -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Entry `(r, l)` of the block at point `t` is entry `(8192 t + r, l)` of the array. -/
theorem iblk0_apply (c : Dev nD) (t : Fin cfg0.N) (r : Fin 8192) (l : Fin 128) :
    (iblk0 V c 0 t : Vec Ideal S8192x128 .f32) (ix2 r l)
      = arr0 V c (ix2 (⟨t.val * 8192 + r.val, by have := t.isLt; have : cfg0.N = 32 := N_0; omega⟩ : Fin 262144) l) := by
  unfold iblk0
  rw [View.read_apply]
  show V c main_v0 _ = V c main_v0 _
  congr 1
  -- the block's coordinate in the array is, per axis, block index times block size plus the own coordinate
  funext a; apply Fin.ext
  obtain ⟨e0, e1⟩ := idx0 t
  match a with
  | ⟨0, _⟩ => show win0_0.index t (0 : Fin 2) * 8192 + 1 * r.val = t.val * 8192 + r.val; omega
  | ⟨1, _⟩ => show win0_0.index t (1 : Fin 2) * 128 + 1 * l.val = l.val; omega

/-- Lane `l` of the running row after the point at position `n`: the column sums of blocks `0 … n`, added up. -/
theorem accAt_apply (c : Dev nD) (n : ℕ) (hn : n < cfg0.N) (l : Fin 128) :
    accAt V c n hn (ix2 (0 : Fin 1) l)
      = ∑ t : Fin (n + 1), ∑ r : Fin 8192, arr0 V c (ix2 (⟨t.val * 8192 + r.val, by have := t.isLt; have : cfg0.N = 32 := N_0; omega⟩ : Fin 262144) l) := by
  induction n with
  | zero =>
    -- the first row is zero plus the first block's column sums, and the sum over one block is that block's term
    show k0_pay2 (iblk0 V c 0 ⟨0, hn⟩ : Vec Ideal S8192x128 .f32) (k0_pay1 (F := Ideal)) (ix2 (0 : Fin 1) l) = _
    refine (step_apply _ _ l).trans ?_
    rw [reset_apply, zero_add, Fin.sum_univ_one]
    refine Finset.sum_congr rfl fun r _ => ?_
    exact iblk0_apply V c ⟨0, hn⟩ r l
  | succ n ih =>
    -- one more step adds block `n + 1`'s column sums: the last term of the sum over `n + 2` blocks
    show k0_pay2 (iblk0 V c 0 ⟨n + 1, hn⟩ : Vec Ideal S8192x128 .f32) (accAt V c n (Nat.lt_of_succ_lt hn)) (ix2 (0 : Fin 1) l) = _
    refine (step_apply _ _ l).trans ?_
    rw [ih]
    refine Eq.trans ?_ (Fin.sum_univ_castSucc _).symm
    congr 1
    refine Finset.sum_congr rfl fun r _ => ?_
    exact iblk0_apply V c ⟨n + 1, hn⟩ r l

/-- The output window's block index is `(0, 0)` at every point: its one block is its whole array. -/
private theorem idx0_out : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

/-- The output window's block of a row, read back, is the row: the block sits at offset zero and spans the array. -/
private theorem read_blk0_out (t : Fin cfg0.N) (G : Vec Ideal S1x128 .f32) :
    ((cfg0.win 1).blk t).view.read (Elt Ideal) G = G := by
  funext y
  rw [View.read_apply]
  show G _ = G y
  congr 1
  funext a; apply Fin.ext
  obtain ⟨e0, e1⟩ := idx0_out t
  match a with
  | ⟨0, _⟩ => show win0_1.index t (0 : Fin 2) * 1 + 1 * (y 0).val = (y 0).val; omega
  | ⟨1, _⟩ => show win0_1.index t (1 : Fin 2) * 128 + 1 * (y 1).val = (y 1).val; omega

/-- An index of the row is in the block at point `t` iff each coordinate is in the block's range on its axis. -/
private theorem mem_blk0_out (t : Fin cfg0.N) (i : S1x128.Idx) :
    i ∈ ((cfg0.win 1).blk t).view.set ↔ ∀ a : Fin 2, win0_1.index t a * S1x128.size a ≤ (i a).val ∧ (i a).val < win0_1.index t a * S1x128.size a + S1x128.size a := by
  show i ∈ ((View.whole main_v1).slice (win0_1.rect t)).set ↔ _
  rw [View.set_slice_whole, Rect.mem_set_unit]
  exact Iff.rfl

/-- The region's output array ends at the row after the last point: the one write-back, at the last point, covers it. -/
theorem rows_final (c : Dev nD) :
    (dat0 V c).arrAt 1 cfg0.N = (accAt V c 31 (by rw [show cfg0.N = 32 from N_0]; omega) : Vec Ideal S1x128 .f32) := by
  have hN : cfg0.N = 32 := N_0
  have hlast : 31 < cfg0.N := by rw [hN]; omega
  refine (dat0 V c).arrAt_eq_of_cover 1 _ (fun t hf => ?_) (fun i => ?_)
  · -- the only point that writes back is the last, and what it writes back is the row after it
    have h31 : t.val = 31 := by have h := (flush0_1 t).mp hf; have := t.isLt; omega
    obtain rfl : t = ⟨31, hlast⟩ := Fin.ext h31
    show (cfg0.win 1).cut (grid0.coords _) ((dat0 V c).after 1 _) = _
    rw [after0_1]
    refine Eq.trans ?_ (read_blk0_out _ _).symm
    rfl
  · -- the last point's block is the whole row, so it covers every index
    refine ⟨⟨31, hlast⟩, (flush0_1 _).mpr rfl, ?_⟩
    rw [mem_blk0_out]
    obtain ⟨e0, e1⟩ := idx0_out ⟨31, hlast⟩
    intro a
    match a with
    | ⟨0, _⟩ =>
      show win0_1.index ⟨31, _⟩ (0 : Fin 2) * 1 ≤ (i 0).val ∧ (i 0).val < win0_1.index ⟨31, _⟩ (0 : Fin 2) * 1 + 1
      have hi : (i 0).val < 1 := (i 0).isLt
      omega
    | ⟨1, _⟩ =>
      show win0_1.index ⟨31, _⟩ (1 : Fin 2) * 128 ≤ (i 1).val ∧ (i 1).val < win0_1.index ⟨31, _⟩ (1 : Fin 2) * 128 + 128
      have hi : (i 1).val < 128 := (i 1).isLt
      omega

end Cert.KernelIdeal.Run

end
-- ==== Proof.KernelIdeal.Spread.lean ====
/-
  What the second region leaves in its output array, at the ideal instance: every entry of the 262144 x 128 array
  holds the sum of the 128 lanes of the row the region was entered with.
-/
import proofs.«167072_j16776142258799_1_alg».proof.Proof.KernelIdeal.Broadcast
import proofs.«167072_j16776142258799_1_alg».proof.Proof.Payloads

set_option maxRecDepth 16384

noncomputable section

open scoped BigOperators

namespace Cert.KernelIdeal.Run

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.Totals

variable (V : (c : Dev nD) → (b : Ref sig .tc) → Buf (Elt Ideal) ((c : Thread nD τ).loc b))

/-- The row the region is entered with, at its literal type. -/
abbrev row1 (c : Dev nD) : Vec Ideal S1x128 .f32 := V c main_v1

/-! ## The two index maps, decided over the 32 grid points -/

/-- The input window's block index is (0, 0) at every point. -/
private theorem idx_in : ∀ t : Fin cfg1.N, win1_0.index t (0 : Fin 2) = 0 ∧ win1_0.index t (1 : Fin 2) = 0 :=
  (by decide +kernel : ∀ t : Fin grid1.N, win1_0.index t (0 : Fin 2) = 0 ∧ win1_0.index t (1 : Fin 2) = 0)

/-- The output window's block index at point `t` is (t, 0). -/
private theorem idx_out : ∀ t : Fin cfg1.N, win1_1.index t (0 : Fin 2) = t.val ∧ win1_1.index t (1 : Fin 2) = 0 :=
  (by decide +kernel : ∀ t : Fin grid1.N, win1_1.index t (0 : Fin 2) = t.val ∧ win1_1.index t (1 : Fin 2) = 0)

/-- The offset of a rectangle that starts at the origin of a rank-2 buffer. -/
private theorem origin2 : (![0, 0] : Fin 2 → Nat) = fun _ => 0 := by
  funext a; match a with | ⟨0, _⟩ => rfl | ⟨1, _⟩ => rfl

/-- The input window's one block is its whole array: at every point the body reads the row itself. -/
theorem iblk1_eq (c : Dev nD) (t : Fin cfg1.N) :
    (iblk1 V c 0 t : Vec Ideal S1x128 .f32) = row1 V c := by
  funext y
  obtain ⟨e0, e1⟩ := idx_in t
  unfold iblk1
  rw [View.read_apply]
  -- the block's element `y` sits in the array at block index times block size plus `y`, and the block index is 0
  show V c main_v1 (((cfg1.win 0).blk t).view.emb y) = V c main_v1 y
  congr 1
  funext a; apply Fin.ext
  match a with
  | ⟨0, _⟩ => show win1_0.index t (0 : Fin 2) * 1 + 1 * (y 0).val = (y 0).val; omega
  | ⟨1, _⟩ => show win1_0.index t (1 : Fin 2) * 128 + 1 * (y 1).val = (y 1).val; omega

/-! ## The output array -/

/-- The sum of the 128 lanes of the row. -/
private abbrev laneTotal (c : Dev nD) : Elt Ideal .f32 := ∑ l : Fin 128, row1 V c (ix2 (0 : Fin 1) l)

/-- The constant array at the lane total. -/
private abbrev constTotal (c : Dev nD) : Vec Ideal S262144x128 .f32 := fun _ => laneTotal V c

/-- What point `t` writes back is block `t` of the constant array: the body's one store fills the staging buffer
    with the spread value of the row it read, which is the lane total at every position, and a block of a constant
    array holds that constant at every position. -/
private theorem flushed_out (c : Dev nD) (t : Fin cfg1.N) :
    (dat1 V c).flushed 1 t = ((cfg1.win 1).blk t).view.read (Elt Ideal) (constTotal V c) := by
  show (cfg1.win 1).cut (grid1.coords t) ((dat1 V c).after 1 t) = _
  rw [after1_1]
  unfold out1_1
  rw [View.canon_unit_zero origin2]
  simp only [View.ld_unit_zero (S := S1x128) origin2]
  funext y
  refine (spread_apply (iblk1 V c 0 t) _).trans ?_
  rw [iblk1_eq V c t]
  rfl

/-- An index of the array is in point `t`'s block iff each coordinate is in the block's range on its axis. -/
private theorem mem_out (t : Fin cfg1.N) (i : S262144x128.Idx) :
    i ∈ ((cfg1.win 1).blk t).view.set ↔ ∀ a : Fin 2, win1_1.index t a * S8192x128.size a ≤ (i a).val ∧ (i a).val < win1_1.index t a * S8192x128.size a + S8192x128.size a := by
  show i ∈ ((View.whole main_v2).slice (win1_1.rect t)).set ↔ _
  rw [View.set_slice_whole, Rect.mem_set_unit]
  exact Iff.rfl

/-- The 32 blocks tile the array: row `r` lies in the block of point `r / 8192`, which spans rows
    `8192 * (r / 8192)` to `8192 * (r / 8192) + 8191` and all 128 lanes; that point exists because `r < 262144 = 32 * 8192`,
    and every point writes its block back. -/
private theorem cover_out (i : S262144x128.Idx) :
    ∃ t : Fin cfg1.N, (cfg1.win 1).flush t = true ∧ i ∈ ((cfg1.win 1).blk t).view.set := by
  have hi0 : (i 0).val < 262144 := (i 0).isLt
  have hi1 : (i 1).val < 128 := (i 1).isLt
  have hN : cfg1.N = 32 := N_1
  let t : Fin cfg1.N := ⟨(i 0).val / 8192, by rw [hN]; omega⟩
  have ht : t.val = (i 0).val / 8192 := rfl
  obtain ⟨e0, e1⟩ := idx_out t
  refine ⟨t, flush1_1 t, ?_⟩
  rw [mem_out]
  intro a
  match a with
  | ⟨0, _⟩ => show win1_1.index t (0 : Fin 2) * 8192 ≤ (i 0).val ∧ (i 0).val < win1_1.index t (0 : Fin 2) * 8192 + 8192; omega
  | ⟨1, _⟩ => show win1_1.index t (1 : Fin 2) * 128 ≤ (i 1).val ∧ (i 1).val < win1_1.index t (1 : Fin 2) * 128 + 128; omega

/-- The region's output array ends constant, at the lane total of the row: each of the 32 write-backs stores that
    number over its block of 8192 rows, and the blocks tile the array. -/
theorem spread_final (c : Dev nD) :
    (dat1 V c).arrAt 1 cfg1.N
      = (fun _ => ∑ l : Fin 128, row1 V c (ix2 (0 : Fin 1) l) : Vec Ideal S262144x128 .f32) :=
  (dat1 V c).arrAt_eq_of_cover 1 (constTotal V c) (fun t _ => flushed_out V c t) cover_out

end Cert.KernelIdeal.Run

end
-- ==== Proof.Regroup.lean ====
/-
  Two ways of regrouping one finite sum of extended reals. Addition of extended reals is commutative and associative, so
  a sum over a finite index set may be taken in any order and through any bijection of the index set; nothing here
  depends on the terms being finite.

  * `sum_blocks`: the 262144 rows are 32 consecutive blocks of 8192 rows, row `t * 8192 + r` being row `r` of block `t`.
    Every row is hit exactly once (`a ↦ (a / 8192, a % 8192)` is the inverse), so summing an array of `262144 × 128`
    numbers lane by lane, then block by block, then row by row inside the block visits every entry once: it is the sum
    of all entries.
  * `sum_shapeCast`: a reshape reads the flat array through the bijection of positions that keeps the row-major rank,
    so the reshaped array has the same sum of all entries as the flat one.
-/
import proofs.«167072_j16776142258799_1_alg».proof.KernelIdeal
import Idealize.ShloMosaic.Lib.ValueIdx
import Idealize.ShloMosaic.Lib.Pipeline.Value
import Mathlib.Algebra.BigOperators.Group.Finset.Defs
import Mathlib.Algebra.BigOperators.Group.Finset.Sigma
import Mathlib.Data.Fintype.BigOperators
import Mathlib.Data.EReal.Basic

noncomputable section

open scoped BigOperators

namespace Cert.KernelIdeal.Totals

open Idealize.ShloMosaic Idealize.SL.Sem Idealize.ShloMosaic.ValueIdx Cert.KernelIdeal

/-- Block `t` and row `r` inside it name row `t * 8192 + r` of the whole array; quotient and remainder by 8192 go back. -/
def blockRow : Fin 32 × Fin 8192 ≃ Fin 262144 where
  toFun p := ⟨p.1.val * 8192 + p.2.val, by omega⟩
  invFun a := (⟨a.val / 8192, by omega⟩, ⟨a.val % 8192, by omega⟩)
  left_inv p := Prod.ext
    (Fin.ext (by show (p.1.val * 8192 + p.2.val) / 8192 = p.1.val; omega))
    (Fin.ext (by show (p.1.val * 8192 + p.2.val) % 8192 = p.2.val; omega))
  right_inv a := Fin.ext (by show a.val / 8192 * 8192 + a.val % 8192 = a.val; omega)

/-- A sum over the 262144 rows is the sum over the blocks of the sums over each block's rows. -/
theorem sum_rows_blocks (f : Fin 262144 → EReal) :
    ∑ t : Fin 32, ∑ r : Fin 8192, f (⟨t.val * 8192 + r.val, by omega⟩ : Fin 262144) = ∑ a : Fin 262144, f a := by
  rw [← Equiv.sum_comp blockRow f]
  exact (Fintype.sum_prod_type' fun (t : Fin 32) (r : Fin 8192) => f (blockRow (t, r))).symm

/-- 262144 rows read as 32 blocks of 8192: summing lane by lane, block by block, row by row visits every entry once. -/
theorem sum_blocks (y : S262144x128.Idx → EReal) :
    ∑ l : Fin 128, ∑ t : Fin 32, ∑ r : Fin 8192, y (ix2 (⟨t.val * 8192 + r.val, by omega⟩ : Fin 262144) l)
      = ∑ k : S262144x128.Idx, y k := by
  have hall : ∑ k : S262144x128.Idx, y k = ∑ l : Fin 128, ∑ a : Fin 262144, y (ix2 a l) :=
    (sum_idx2 y).trans Finset.sum_comm
  rw [hall]
  exact Finset.sum_congr rfl fun l _ => sum_rows_blocks fun a => y (ix2 a l)

/-- A reshape permutes positions, so it keeps the sum of all entries. -/
theorem sum_shapeCast (x : S33554432.Idx → EReal) (h : S33554432.ShapeCasts S262144x128) :
    ∑ k : S262144x128.Idx, shapeCast S262144x128 x h k = ∑ j : S33554432.Idx, x j :=
  Equiv.sum_comp (Shape.reshapeEquiv h) x

end Cert.KernelIdeal.Totals

end
-- ==== Proof.KernelIdeal.Total.lean ====
/-
  The idealized kernel's result, at the ideal instance: every position of the result array holds the sum of all
  entries of the input. The first reshape reads the flat input as 262144 rows of 128 lanes; the first region
  leaves, lane by lane, the sum over all rows of that lane (32 blocks of 8192 rows, added block after block); the
  second region adds the 128 lanes and writes the total everywhere; the last reshape keeps a constant array
  constant. Summing lane by lane, block by block, row by row visits every entry of the 262144 x 128 array once,
  and a reshape permutes positions, so the total is the sum over the flat input. Extended-real addition is
  commutative and associative, so no finiteness is needed for the regrouping.
-/
import proofs.«167072_j16776142258799_1_alg».proof.Proof.KernelIdeal.Main
import proofs.«167072_j16776142258799_1_alg».proof.Proof.KernelIdeal.RowSums
import proofs.«167072_j16776142258799_1_alg».proof.Proof.KernelIdeal.Spread
import proofs.«167072_j16776142258799_1_alg».proof.Proof.Regroup
import Idealize.ShloMosaic.Lib.StableHlo.Run

set_option maxRecDepth 16384

noncomputable section

open scoped BigOperators

namespace Cert.KernelIdeal.Run

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.Totals

variable (m : (ℓ : Loc nD τ sig) → Buf (Elt Ideal) ℓ)

/-- The flat input on core `c`, at its literal type. -/
abbrev input (c : Dev nD) : Vec Ideal S33554432 .f32 := m ((c : Thread nD τ).loc main_arg0)

/-- The array the first region is entered with is the reshape of the flat input. -/
theorem entry_rows (c : Dev nD) :
    arr0 (V1 m) c = shapeCast S262144x128 (input m c) shapeCasts_S33554432_S262144x128 := by
  show StableHlo.after hostOps0 (fun b => m (c, b)) (Proc.devRef .tc main_v0) = _
  after_results
  rfl

/-- The last reshape of a constant array is that constant array. -/
theorem exit_flat (c : Dev nD) (T : Elt Ideal .f32)
    (h : (W3 m c (Proc.devRef .tc main_v2) : Vec Ideal S262144x128 .f32) = fun _ => T) :
    (W4 m c (Proc.devRef .tc main_v3) : Vec Ideal S33554432 .f32) = fun _ => T := by
  show StableHlo.after hostOps2 (W3 m c) (Proc.devRef .tc main_v3) = _
  after_results
  funext i
  show shapeCast S33554432 (W3 m c (Proc.devRef .tc main_v2) : Vec Ideal S262144x128 .f32) shapeCasts_S262144x128_S33554432 i = T
  rw [h]
  rfl

/-- The row the second region is entered with is the row of column sums the first region left. -/
theorem entry_row (c : Dev nD) :
    row1 (V2 m) c = (accAt (V1 m) c 31 (by rw [show cfg0.N = 32 from N_0]; omega) : Vec Ideal S1x128 .f32) :=
  (W2_arr m c 1).trans (rows_final (V1 m) c)

/-- The lane total of that row is the sum of all entries of the flat input. -/
theorem lanes_total (c : Dev nD) :
    ∑ l : Fin 128, row1 (V2 m) c (ix2 (0 : Fin 1) l) = ∑ j : S33554432.Idx, input m c j := by
  rw [entry_row]
  simp only [accAt_apply]
  refine (sum_blocks (arr0 (V1 m) c)).trans ?_
  rw [entry_rows]
  exact sum_shapeCast (input m c) shapeCasts_S33554432_S262144x128

/-- The constant array at the sum of all entries of the flat input. -/
def totalArr (c : Dev nD) : Vec Ideal S33554432 .f32 := fun _ => ∑ j : S33554432.Idx, input m c j

/-- THE KERNEL'S VALUE: the result array holds the input's total at every position. -/
theorem kernel_total (c : Dev nD) :
    (W4 m c (Proc.devRef .tc main_v3) : Vec Ideal S33554432 .f32) = totalArr m c := by
  unfold totalArr
  refine exit_flat m c _ ?_
  refine ((W3_arr m c 1).trans (spread_final (V2 m) c)).trans ?_
  funext _
  exact lanes_total m c

end Cert.KernelIdeal.Run

end
-- ==== Proof.RefTotal.lean ====
/-
  The reference at the ideal instance: its result array holds, at every position, the sum of all entries of the
  input. The host's one reduction runs over the whole flat array from the zero word, which is the real number 0,
  and the broadcast of the resulting scalar reads it at every position.
-/
import proofs.«167072_j16776142258799_1_alg».proof.Proof.Gen.ReferenceIdeal.Run
import proofs.«167072_j16776142258799_1_alg».proof.Proof.Gen.ReferenceIdeal.Read
import Idealize.ShloMosaic.Lib.ValueIdx
import Idealize.ShloMosaic.PureOps.Ideal.Laws

noncomputable section

open scoped BigOperators

namespace Cert.ReferenceIdeal.RefTotal

open Idealize.ShloMosaic Idealize.SL.Sem Cert.ReferenceIdeal Cert.ReferenceIdeal.Gen Cert.ReferenceIdeal.Read

/-- The reference's result term is the constant array of the input's total. -/
theorem ref_total (x : Vec Ideal S33554432 .f32) :
    broadcastInDim S33554432 ![] bcast_S_S33554432 (Host.reduceAdd (F := Ideal) x (constant (F := Ideal) S_ .f32 0x00000000#32) reducesTo_S33554432_S_d0 h_S_)
      = (fun _ => ∑ j : S33554432.Idx, x j : Vec Ideal S33554432 .f32) := by
  rw [val_main_v1_eq]
  funext i
  rw [val_main_v1_apply, val_main_v0_apply, val_main_cst_apply]
  rw [show (FloatOps.ofBits (F := Ideal) .f32 0x00000000#32) = Ideal.ofBits .f32 0x00000000#32 from rfl, Ideal.ofBits_zero_f32, zero_add]

end Cert.ReferenceIdeal.RefTotal

end
-- ==== Proof.lean ====
/-
  The certificate of a global sum: the kernel adds 2^25 numbers in two passes (per-lane column sums accumulated
  over 32 row blocks, then a sum of the 128 lanes broadcast to every position) and the reference adds them in one
  host reduction and broadcasts the total. Over the extended reals addition is commutative and associative, so
  both results are, at every position, the sum of all the input's entries.

  The three frames: each kernel program runs as four segments (a reshape, the two kernel regions, a reshape back)
  and leaves the argument array untouched; the reference's frame is its run with the result dropped. The
  idealization rewrote no operation, so there is nothing to preserve. The algebraic claim names the common result
  array: constant at the input's total.
-/
import proofs.«167072_j16776142258799_1_alg».proof.Defs
import proofs.«167072_j16776142258799_1_alg».proof.Proof.Gen.Kernel
import proofs.«167072_j16776142258799_1_alg».proof.Proof.Gen.KernelIdeal
import proofs.«167072_j16776142258799_1_alg».proof.Proof.Gen.ReferenceIdeal
import proofs.«167072_j16776142258799_1_alg».proof.Proof.Gen.Pre_finite_inputs
import proofs.«167072_j16776142258799_1_alg».proof.Proof.Gen.ReferenceIdeal.Run
import proofs.«167072_j16776142258799_1_alg».proof.Proof.Kernel.Main
import proofs.«167072_j16776142258799_1_alg».proof.Proof.KernelIdeal.Main
import proofs.«167072_j16776142258799_1_alg».proof.Proof.KernelIdeal.Total
import proofs.«167072_j16776142258799_1_alg».proof.Proof.RefTotal
import Idealize.ShloMosaic.Adequacy
import Idealize.ShloMosaic.Init

noncomputable section

open scoped BigOperators

namespace Cert.Proof

open Idealize.ShloMosaic Idealize.ShloMosaic.TcCoe Idealize.SL.Sem

/-- The word-level kernel runs to the end and leaves its argument as launched. -/
theorem frame_k : Cert.frame_Kernel := fun m ρ _ => Cert.Kernel.Run.frame m ρ

/-- So does the idealized kernel. -/
theorem frame_ki : Cert.frame_KernelIdeal := fun m ρ _ => Cert.KernelIdeal.Run.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the result array constant at the sum of all entries of the input. -/
theorem algebraic : Cert.algebraic_KernelIdeal_ReferenceIdeal := by
  intro m ρ m' ρ' _ hagree
  refine ⟨fun c => Cert.KernelIdeal.Run.totalArr m c, ?_, ?_⟩
  · exact (θ_run Cert.KernelIdeal.defs _ _).mono
      (fun _ h c => ⟨(h c).1.trans (Cert.KernelIdeal.Run.kernel_total m c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefTotal.ref_total, hagree c]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
